-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S128x256 : Shape := ⟨2, ![128, 256]⟩
abbrev S128 : Shape := ⟨1, ![128]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x256 .f32) (main_arg1 : FVec F S16384x16384 .f32) (main_arg2 : FVec F S128x256 .f32) (main_arg3 : FVec F S128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x256 : Shape := ⟨2, ![16384, 256]⟩
abbrev S16384x16384 : Shape := ⟨2, ![16384, 16384]⟩
abbrev S128x256 : Shape := ⟨2, ![128, 256]⟩
abbrev S128 : Shape := ⟨1, ![128]⟩
abbrev S1x128 : Shape := ⟨2, ![1, 128]⟩
abbrev S16384x128 : Shape := ⟨2, ![16384, 128]⟩
abbrev S2048x256 : Shape := ⟨2, ![2048, 256]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S16384x128, .bf16⟩
  | .hbm, ⟨6, _⟩ => ⟨S16384x128, .f32⟩
  | .local _ .vmem, ⟨0, _⟩ => ⟨S2048x256, .f32⟩
  | .local _ .vmem, ⟨1, _⟩ => ⟨S2048x256, .f32⟩
  | .local _ .vmem, ⟨2, _⟩ => ⟨S128x256, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S1024x2048, .f32⟩
  | .local _ .vmem, ⟨7, _⟩ => ⟨S1024x2048, .f32⟩
  | .local _ .vmem, ⟨8, _⟩ => ⟨S2048x128, .bf16⟩
  | .local _ .vmem, ⟨9, _⟩ => ⟨S2048x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S2048x128_S2048x128 : S2048x128.ShapeCasts S2048x128
  dot_S2048x256_S128x256_S2048x128_1_1_0_0_n_n_wf : DotDims.WF S2048x256 S128x256 S2048x128 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .bf16 = 32 ∨ (Rect.block (s := S16384x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)

variable [Facts₀]

def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S128x256 : Shape := ⟨2, ![128, 256]⟩
abbrev S128 : Shape := ⟨1, ![128]⟩
abbrev S16384x128 : Shape := ⟨2, ![16384, 128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S128x256, .f32⟩
  | .hbm, ⟨3, _⟩ => ⟨S128, .f32⟩
  | .hbm, ⟨4, _⟩ => ⟨S16384x128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x256_S128x256_S16384x128_1_1_0_0_n_n_wf : DotDims.WF S16384x256 S128x256 S16384x128 [1] [1] [0] [0] [] []
  dot_S16384x16384_S16384x128_S16384x128_1_0_0_1_n_n_wf : DotDims.WF S16384x16384 S16384x128 S16384x128 [1] [0] [0] [1] [] []

variable [Facts₀]

def dot_S16384x256_S128x256_S16384x128_1_1_0_0_n_n : DotDims S16384x256 S128x256 S16384x128 where
  lhsContracting := [1]
  rhsContracting := [1]
  lhsNonContracting := [0]
  rhsNonContracting := [0]
  lhsBatch := []
  rhsBatch := []
  wf := dot_S16384x256_S128x256_S16384x128_1_1_0_0_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.K.RegionLin.lean ====
/-
  The first kernel region: the linear map, eight grid points, one block of 2048 nodes per point.

  At each point the body reads the point's block of node features (2048 x 256), the whole weight matrix (128 x 256)
  and the bias row (1 x 128), and stores into the output block (2048 x 128) one value: the matrix product of the
  features with the transposed weights, plus the bias row on every row.  Nothing is kept between points.  This module
  states what the output block holds after the body as a function of the three input blocks, proves the body's triple,
  and packages the region's proof data and body obligation at any contents `V` the region is entered from.
-/
import proofs.«112089_j31421980738083_1_alg».proof.Proof.Gen.Kernel.Launch
import proofs.«112089_j31421980738083_1_alg».proof.Proof.Gen.Kernel.Skeleton
import proofs.«112089_j31421980738083_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not:
    a point that does not fetch has the same block index as the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x256 := Rect.unit (s := S2048x256) ![0, 0] S2048x256.size inb_S2048x256_S2048x256_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
abbrev rH : Rect S2048x128 := Rect.unit (s := S2048x128) ![0, 0] S2048x128.size inb_S2048x128_S2048x128_0_0

/-- What the body leaves in the output block, from the three input blocks: its one store, of the product plus the bias. -/
def out0_3 (x0 : Vec F S2048x256 .f32) (x1 : Vec F S128x256 .f32) (x2 : Vec F S1x128 .f32) : Vec F S2048x128 .bf16 :=
  View.canon [⟨rH, k0_pay1 (View.ld x0 rX) (View.ld x1 rW) (View.ld x2 rB)⟩]

/-- That one store covers the block. -/
theorem cover0_3 (p0 : Vec F S2048x128 .bf16) (y : S2048x128.Idx) :
    ∃ pc ∈ ([⟨rH, p0⟩] : List (View.Piece (Elt F) S2048x128 .bf16)), y ∈ pc.1.set :=
  View.cover_of_tiled [⟨rH, p0⟩] S2048x128.size (by rfl) y

set_option maxHeartbeats 1000000 in
/-- The body's triple: on whole staging buffers, the inputs at `x0`, `x1`, `x2` and the output at anything, the body
    runs and leaves the inputs as they were and the output at `out0_3` of them. -/
theorem sound_kernel0 (c : Dev nD) (E : Set ℕ) (i : grid0.Coords) (arg1 : Memref sig .tc .vmem S2048x256 .f32) (harg1 : arg1.IsWhole)
    (arg2 : Memref sig .tc .vmem S128x256 .f32) (harg2 : arg2.IsWhole) (arg3 : Memref sig .tc .vmem S1x128 .f32) (harg3 : arg3.IsWhole)
    (arg4 : Memref sig .tc .vmem S2048x128 .bf16) (harg4 : arg4.IsWhole)
    (x0 : Vec F S2048x256 .f32) (x1 : Vec F S128x256 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer still at its block and the output's at `out0_3` of the input blocks; the invariant says nothing of the scoped
    buffers the region does not stage; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.RegionAgg.lean ====
/-
  The second kernel region: the aggregation, a 16 x 8 grid.  Point (i, k) reads block (i, k) of the matrix
  (1024 x 2048) and block k of the node values (2048 x 128), and keeps a 1024 x 128 accumulator in a scratch buffer
  across the eight points of a row i: at k = 0 it is reset to zero, at every k the block product is added to it, and
  at k = 7 it is copied into the output block (1024 x 128), which the pipeline writes back only there.
-/
import proofs.«112089_j31421980738083_1_alg».proof.Proof.Gen.Kernel.Launch
import proofs.«112089_j31421980738083_1_alg».proof.Proof.Gen.Kernel.Skeleton
import proofs.«112089_j31421980738083_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition at grid coordinates `i`: the second coordinate is zero. -/
abbrev cond1_0 (i : grid1.Coords) : Prop := (Scalar.cmpi .ne (Scalar.extui (Scalar.cmpi .eq (BitVec.ofNat 32 (i 1).val) 0#32)) 0#32) = 1#1
/-- The second conditional's condition: the second coordinate is seven. -/
abbrev cond1_1 (i : grid1.Coords) : Prop := k1_cond2 i = 1#1

/-- The zero offsets, as a function. -/
theorem off_zero1 : (![0, 0] : Fin 2 → Nat) = fun _ => 0 := funext fun a => by fin_cases a <;> rfl

/-- The first condition holds at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second condition holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, at every point but the last of a row of the grid. -/
theorem idleAt1_2 : ∀ t : Fin cfg1.N, ¬ t.val % 8 = 7 → cfg1.idle 2 (grid1.coords t) = true :=
  (by decide +kernel : ∀ t : Fin grid1.N, ¬ t.val % 8 = 7 → cfg1.idle 2 (grid1.coords t) = true)
theorem noFlush1_2 : ∀ t : Fin cfg1.N, ¬ t.val % 8 = 7 → (cfg1.win 2).flush t = false :=
  (by decide +kernel : ∀ t : Fin grid1.N, ¬ t.val % 8 = 7 → win1_2.flush t = false)
/-- At the last point of a row of the grid the output window is live. -/
theorem liveAt1_2 : ∀ t : Fin cfg1.N, t.val % 8 = 7 → cfg1.idle 2 (grid1.coords t) = false :=
  (by decide +kernel : ∀ t : Fin grid1.N, t.val % 8 = 7 → cfg1.idle 2 (grid1.coords t) = false)

set_option maxHeartbeats 1000000 in
/-- Case A, the first point of a row of the grid (second coordinate zero): the body resets the accumulator to zero and
    adds the block product to it; the output block is not touched.  On whole buffers, the inputs at `x0`, `x1`, the
    output at `xi` and the accumulator at anything, it leaves the inputs and the output as they were and the
    accumulator at the block product added to zero. -/
theorem sound_kernel1_A (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : cond1_0 i) (hc1 : ¬cond1_1 i)
    (x0 : Vec F S1024x2048 .f32) (x1 : Vec F S2048x128 .bf16) (xi : Vec F S1024x128 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero off_zero1 inb_S1024x128_S1024x128_0_0 y⟩)]
  rw [View.canon_cons_unit_zero (S := S1024x128) off_zero1, View.readCov_unit_zero (S := S1024x128) _ off_zero1]
  simp only [View.readAt_eq_ld, View.ld_unit_zero (S := S1024x2048) off_zero1, View.ld_unit_zero (S := S2048x128) off_zero1, View.ld_unit_zero (S := S1024x128) off_zero1]

set_option maxHeartbeats 1000000 in
/-- Case B, a point strictly inside a row of the grid: the body adds the block product to the accumulator, which holds
    `xs`; the output block is not touched. -/
theorem sound_kernel1_B (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : ¬cond1_0 i) (hc1 : ¬cond1_1 i)
    (x0 : Vec F S1024x2048 .f32) (x1 : Vec F S2048x128 .bf16) (xi xs : Vec F S1024x128 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero off_zero1 inb_S1024x128_S1024x128_0_0 y⟩)]
  rw [View.canon_cons_unit_zero (S := S1024x128) off_zero1]
  simp only [View.readAt_eq_ld, View.ld_unit_zero (S := S1024x2048) off_zero1, View.ld_unit_zero (S := S2048x128) off_zero1, View.ld_unit_zero (S := S1024x128) off_zero1]

set_option maxHeartbeats 1000000 in
/-- Case C, the last point of a row of the grid (second coordinate seven): the body adds the block product to the
    accumulator, which holds `xs`, and copies the accumulator into the output block, whatever that held. -/
theorem sound_kernel1_C (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : ¬cond1_0 i) (hc1 : cond1_1 i)
    (x0 : Vec F S1024x2048 .f32) (x1 : Vec F S2048x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero off_zero1 inb_S1024x128_S1024x128_0_0 y⟩)]
    rw [View.canon_cons_unit_zero (S := S1024x128) off_zero1, View.readCov_unit_zero (S := S1024x128) _ off_zero1]
    simp only [View.readAt_eq_ld, View.ld_unit_zero (S := S1024x2048) off_zero1, View.ld_unit_zero (S := S2048x128) off_zero1, View.ld_unit_zero (S := S1024x128) off_zero1]
  iexists _; isplitr
  swap; · iexact H3
  ipureintro
  sl_unfold_words
  rw [View.read_writes_eq_canon _ _ _ (fun y => ⟨_, List.mem_cons_self, View.mem_set_unit_zero off_zero1 inb_S1024x128_S1024x128_0_0 y⟩)]
  rw [View.canon_cons_unit_zero (S := S1024x128) off_zero1]
  simp only [View.readAt_eq_ld, View.ld_unit_zero (S := S1024x2048) off_zero1, View.ld_unit_zero (S := S2048x128) off_zero1, View.ld_unit_zero (S := S1024x128) off_zero1]

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand as a memref. -/
abbrev scM1 : Memref sig .tc .vmem S1024x128 .f32 := Memref.whole cc1_scratch0

/-- What the accumulator holds after the body at position `n` of the grid: at the first point of a row of the grid
    (`n` a multiple of 8) the block product added to the zero it was just reset to, at any other point the block product
    added to what the point before left. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬ t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The scoped buffers of the core that this region neither stages nor uses: the other region's six staging buffers,
    each whole at some contents.  They ride through the region untouched. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point nothing is said of the scoped buffers the region
    does not stage; afterwards the accumulator holds what the point before left, the other region's staging buffers beside it. -/
def PhiS1 (c : Dev nD) : (n : ℕ) → n ≤ cfg1.N → sProp 𝕄
  | 0, _ => Pipeline.ΦA spec1 c
  | n + 1, hn => iprop(iprop(otherScoped1 (F := F) c ∗ owns (c : Thread nD τ) scM1 fullShare (accAt1 V c n hn)) ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- The output block, where it is written back, is the accumulator. -/
theorem after1_2 (c : Dev nD) (t : Fin cfg1.N) : (dat1 V c).after 2 t = accAt1 V c t.val t.isLt := by dsimp only [dat1]

/-- An input window's current staging buffer holds its block at every point, whether the point fetches it or not:
    a point that does not fetch has the same block index as the one before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(otherScoped1 (F := F) c ∗ owns (c : Thread nD τ) scM1 fullShare (accAt1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(otherScoped1 (F := F) c ∗ owns (c : Thread nD τ) scM1 fullShare (accAt1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region entails: the other region's staging buffers, the accumulator's buffer as a memref
    owned at some contents, and the generator register. -/
theorem PhiA1_split (c : Dev nD) :
    (Pipeline.ΦA spec1 c : sProp 𝕄)
      ⊢ iprop(iprop(otherScoped1 (F := F) c ∗ (∃ d, owns (c : Thread nD τ) scM1 fullShare d)) ∗ (∃ r, prngReg c r)) := by
  unfold Pipeline.ΦA otherScoped1; rw [scopedRest1_eq]; simp only [scM1, owns_whole]
  iintro ⟨⟨A0, A1, A2, A3, A4, A5, S⟩, Hg⟩
  isplitr [Hg]
  swap; · iexact Hg
  isplitr [S]
  swap; · iexact S
  isplitl [A0]; · iexact A0
  isplitl [A1]; · iexact A1
  isplitl [A2]; · iexact A2
  isplitl [A3]; · iexact A3
  isplitl [A4]; · iexact A4
  iexact A5

/-- Conversely, those three give back what the launch handed the region. -/
theorem PhiA1_join (c : Dev nD) :
    iprop(iprop(otherScoped1 (F := F) c ∗ (∃ d, owns (c : Thread nD τ) scM1 fullShare d)) ∗ (∃ r, prngReg c r))
      ⊢ (Pipeline.ΦA spec1 c : sProp 𝕄) := by
  unfold Pipeline.ΦA otherScoped1; rw [scopedRest1_eq]; simp only [scM1, owns_whole]
  iintro ⟨⟨⟨A0, A1, A2, A3, A4, A5⟩, S⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  iexact S

/-- So the two are one proposition. -/
theorem PhiA1_eq (c : Dev nD) :
    (Pipeline.ΦA spec1 c : sProp 𝕄)
      = iprop(iprop(otherScoped1 (F := F) c ∗ (∃ d, owns (c : Thread nD τ) scM1 fullShare d)) ∗ (∃ r, prngReg c r)) :=
  Idealize.SL.BI.Entails.antisymm (PhiA1_split c) (PhiA1_join c)

/-- What the body is called with at point `t`, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point: the inputs' buffers hold their blocks; the position modulo 8 says which case the point is in;
    the invariant hands the body the accumulator at what the point before left (at anything at the very first point) and
    takes it back at this point's contents; the output's buffer is handed back untouched where the point does not write
    it back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬ t.val % 8 = 7 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩⟩
      iapply (sound_kernel1_A c Set.univ _ _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr, HS⟩, Hg⟩, Ho, ⟨%d0, H0⟩, ⟨%d1, H1⟩, ⟨%d2, H2⟩⟩
      iapply (sound_kernel1_A c Set.univ _ _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2
  · have hz : t.val ≠ 0 := by omega
    rw [PhiS1_castSucc V c t, PhiS1_pos V c _ _ hz]
    by_cases h1 : t.val % 8 = 7
    · rw [show (dat1 V c).leavesExact 2 t = owns (c : Thread nD τ) (st1_2 t) fullShare ((dat1 V c).after 2 t) from by
        unfold Dat.leavesExact; rw [liveAt1_2 t h1], after1_2]
      rw [accAt1_next V c t h0]
      iintro ⟨⟨⟨Hr, HS⟩, Hg⟩, Ho, ⟨%d0, H0⟩, ⟨%d1, H1⟩, ⟨%d2, H2⟩⟩
      iapply (sound_kernel1_C c Set.univ _ _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      rw [accAt1_next V c t h0]
      iintro ⟨⟨⟨Hr, HS⟩, Hg⟩, Ho, ⟨%d0, H0⟩, ⟨%d1, H1⟩, ⟨%d2, H2⟩⟩
      iapply (sound_kernel1_B c Set.univ _ _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  all_goals exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Hr, HS⟩, Hg⟩
  isplitl [Hr HS]
  · isplitl [Hr]; · iexact Hr
    iexists _; iexact HS
  iexact Hg

end

end Cert.Kernel.Fr

end
-- ==== Proof.K.MainRun.lean ====
/-
  The run of the whole program: one host operation (the bias vector reshaped to a row), then the linear region, then
  the aggregation region.  The contents of the core's unscoped buffers are followed through the three items as a fold
  from the launch memory; each region is entered from the contents the item before left and leaves its arrays at what
  its write-backs made of them.  From the one run come both the frame (every argument array ends as launched) and the
  name of what the result array holds at the end.
-/
import proofs.«112089_j31421980738083_1_alg».proof.Proof.K.RegionLin
import proofs.«112089_j31421980738083_1_alg».proof.Proof.K.RegionAgg

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (the linear region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the linear region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the aggregation region's exit (the end of the program). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The host operation writes only the bias row's buffer. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array at the end is what the aggregation region's write-backs left. -/
theorem W3_main_v2 (c : Dev nD) : W3 m ρ c (Proc.devRef .tc main_v2) = (dat1 (V2 m ρ) c).arrAt 2 cfg1.N :=
  W3_arr m ρ c 2
/-- The aggregation region finds the node values the linear region's write-backs left, -/
theorem V2_main_v1 (c : Dev nD) : V2 m ρ c main_v1 = (dat0 (V1 m ρ) c).arrAt 3 cfg0.N :=
  W2_arr m ρ c 3
/-- and the matrix as launched. -/
theorem V2_main_arg1 (c : Dev nD) : V2 m ρ c main_arg1 = m ((c : Thread nD τ).loc main_arg1) :=
  (W2_of_ne m ρ c main_arg1 (by decide)).trans ((W1_of_ne m ρ c main_arg1 (by decide)).trans rfl)
/-- The linear region finds the features and the weights as launched. -/
theorem V1_main_arg0 (c : Dev nD) : V1 m ρ c main_arg0 = m ((c : Thread nD τ).loc main_arg0) :=
  (W1_of_ne m ρ c main_arg0 (by decide)).trans rfl
theorem V1_main_arg2 (c : Dev nD) : V1 m ρ c main_arg2 = m ((c : Thread nD τ).loc main_arg2) :=
  (W1_of_ne m ρ c main_arg2 (by decide)).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The linear region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from every unscoped buffer at `W2`, left at `W3`.  Its invariant starts as the
    launch's and ends giving the scoped buffers back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V2 m ρ) c
    iintro ⟨Hp, -, Hr⟩
    iapply h1
    unfold Pipeline.ΦA
    isplitl [Hr]; · iexact Hr
    iexact Hp
  hout c := by
    rw [Pipeline.ownSems0_none]
    have h1 : (pdats m ρ 1 c).Φ (Fin.last _) ⊢ Pipeline.ΦA spec1 c := hout1 (V2 m ρ) c
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution of the program terminates without a fault,
    and at the end the result array holds what the aggregation region's write-backs left, each argument array what it
    held at launch. -/
theorem run : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Fr

end
-- ==== Proof.KI.RegionLin.lean ====
/-
  The first kernel region: the linear map, eight grid points, one block of 2048 nodes per point.

  At each point the body reads the point's block of node features (2048 x 256), the whole weight matrix (128 x 256)
  and the bias row (1 x 128), and stores into the output block (2048 x 128) one value: the matrix product of the
  features with the transposed weights, plus the bias row on every row.  Nothing is kept between points.  This module
  states what the output block holds after the body as a function of the three input blocks, proves the body's triple,
  and packages the region's proof data and body obligation at any contents `V` the region is entered from.
-/
import proofs.«112089_j31421980738083_1_alg».proof.Proof.Gen.KernelIdeal.Launch
import proofs.«112089_j31421980738083_1_alg».proof.Proof.Gen.KernelIdeal.Skeleton
import proofs.«112089_j31421980738083_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not:
    a point that does not fetch has the same block index as the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x256 := Rect.unit (s := S2048x256) ![0, 0] S2048x256.size inb_S2048x256_S2048x256_0_0
abbrev rW : Rect S128x256 := Rect.unit (s := S128x256) ![0, 0] S128x256.size inb_S128x256_S128x256_0_0
abbrev rB : Rect S1x128 := Rect.unit (s := S1x128) ![0, 0] S1x128.size inb_S1x128_S1x128_0_0
abbrev rH : Rect S2048x128 := Rect.unit (s := S2048x128) ![0, 0] S2048x128.size inb_S2048x128_S2048x128_0_0

/-- What the body leaves in the output block, from the three input blocks: its one store, of the product plus the bias. -/
def out0_3 (x0 : Vec F S2048x256 .f32) (x1 : Vec F S128x256 .f32) (x2 : Vec F S1x128 .f32) : Vec F S2048x128 .bf16 :=
  View.canon [⟨rH, k0_pay1 (View.ld x0 rX) (View.ld x1 rW) (View.ld x2 rB)⟩]

/-- That one store covers the block. -/
theorem cover0_3 (p0 : Vec F S2048x128 .bf16) (y : S2048x128.Idx) :
    ∃ pc ∈ ([⟨rH, p0⟩] : List (View.Piece (Elt F) S2048x128 .bf16)), y ∈ pc.1.set :=
  View.cover_of_tiled [⟨rH, p0⟩] S2048x128.size (by rfl) y

set_option maxHeartbeats 1000000 in
/-- The body's triple: on whole staging buffers, the inputs at `x0`, `x1`, `x2` and the output at anything, the body
    runs and leaves the inputs as they were and the output at `out0_3` of them. -/
theorem sound_kernel0 (c : Dev nD) (E : Set ℕ) (i : grid0.Coords) (arg1 : Memref sig .tc .vmem S2048x256 .f32) (harg1 : arg1.IsWhole)
    (arg2 : Memref sig .tc .vmem S128x256 .f32) (harg2 : arg2.IsWhole) (arg3 : Memref sig .tc .vmem S1x128 .f32) (harg3 : arg3.IsWhole)
    (arg4 : Memref sig .tc .vmem S2048x128 .bf16) (harg4 : arg4.IsWhole)
    (x0 : Vec F S2048x256 .f32) (x1 : Vec F S128x256 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer still at its block and the output's at `out0_3` of the input blocks; the invariant says nothing of the scoped
    buffers the region does not stage; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.RegionAgg.lean ====
/-
  The second kernel region: the aggregation, a 16 x 8 grid.  Point (i, k) reads block (i, k) of the matrix
  (1024 x 2048) and block k of the node values (2048 x 128), and keeps a 1024 x 128 accumulator in a scratch buffer
  across the eight points of a row i: at k = 0 it is reset to zero, at every k the block product is added to it, and
  at k = 7 it is copied into the output block (1024 x 128), which the pipeline writes back only there.
-/
import proofs.«112089_j31421980738083_1_alg».proof.Proof.Gen.KernelIdeal.Launch
import proofs.«112089_j31421980738083_1_alg».proof.Proof.Gen.KernelIdeal.Skeleton
import proofs.«112089_j31421980738083_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition at grid coordinates `i`: the second coordinate is zero. -/
abbrev cond1_0 (i : grid1.Coords) : Prop := (Scalar.cmpi .ne (Scalar.extui (Scalar.cmpi .eq (BitVec.ofNat 32 (i 1).val) 0#32)) 0#32) = 1#1
/-- The second conditional's condition: the second coordinate is seven. -/
abbrev cond1_1 (i : grid1.Coords) : Prop := k1_cond2 i = 1#1

/-- The zero offsets, as a function. -/
theorem off_zero1 : (![0, 0] : Fin 2 → Nat) = fun _ => 0 := funext fun a => by fin_cases a <;> rfl

/-- The first condition holds at the points whose position is a multiple of 8. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second condition holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, at every point but the last of a row of the grid. -/
theorem idleAt1_2 : ∀ t : Fin cfg1.N, ¬ t.val % 8 = 7 → cfg1.idle 2 (grid1.coords t) = true :=
  (by decide +kernel : ∀ t : Fin grid1.N, ¬ t.val % 8 = 7 → cfg1.idle 2 (grid1.coords t) = true)
theorem noFlush1_2 : ∀ t : Fin cfg1.N, ¬ t.val % 8 = 7 → (cfg1.win 2).flush t = false :=
  (by decide +kernel : ∀ t : Fin grid1.N, ¬ t.val % 8 = 7 → win1_2.flush t = false)
/-- At the last point of a row of the grid the output window is live. -/
theorem liveAt1_2 : ∀ t : Fin cfg1.N, t.val % 8 = 7 → cfg1.idle 2 (grid1.coords t) = false :=
  (by decide +kernel : ∀ t : Fin grid1.N, t.val % 8 = 7 → cfg1.idle 2 (grid1.coords t) = false)

set_option maxHeartbeats 1000000 in
/-- Case A, the first point of a row of the grid (second coordinate zero): the body resets the accumulator to zero and
    adds the block product to it; the output block is not touched.  On whole buffers, the inputs at `x0`, `x1`, the
    output at `xi` and the accumulator at anything, it leaves the inputs and the output as they were and the
    accumulator at the block product added to zero. -/
theorem sound_kernel1_A (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : cond1_0 i) (hc1 : ¬cond1_1 i)
    (x0 : Vec F S1024x2048 .f32) (x1 : Vec F S2048x128 .bf16) (xi : Vec F S1024x128 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero off_zero1 inb_S1024x128_S1024x128_0_0 y⟩)]
  rw [View.canon_cons_unit_zero (S := S1024x128) off_zero1, View.readCov_unit_zero (S := S1024x128) _ off_zero1]
  simp only [View.readAt_eq_ld, View.ld_unit_zero (S := S1024x2048) off_zero1, View.ld_unit_zero (S := S2048x128) off_zero1, View.ld_unit_zero (S := S1024x128) off_zero1]

set_option maxHeartbeats 1000000 in
/-- Case B, a point strictly inside a row of the grid: the body adds the block product to the accumulator, which holds
    `xs`; the output block is not touched. -/
theorem sound_kernel1_B (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : ¬cond1_0 i) (hc1 : ¬cond1_1 i)
    (x0 : Vec F S1024x2048 .f32) (x1 : Vec F S2048x128 .bf16) (xi xs : Vec F S1024x128 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero off_zero1 inb_S1024x128_S1024x128_0_0 y⟩)]
  rw [View.canon_cons_unit_zero (S := S1024x128) off_zero1]
  simp only [View.readAt_eq_ld, View.ld_unit_zero (S := S1024x2048) off_zero1, View.ld_unit_zero (S := S2048x128) off_zero1, View.ld_unit_zero (S := S1024x128) off_zero1]

set_option maxHeartbeats 1000000 in
/-- Case C, the last point of a row of the grid (second coordinate seven): the body adds the block product to the
    accumulator, which holds `xs`, and copies the accumulator into the output block, whatever that held. -/
theorem sound_kernel1_C (c : Dev nD) (E : Set ℕ) (i : grid1.Coords) (arg2 : Memref sig .tc .vmem S1024x2048 .f32) (harg2 : arg2.IsWhole)
    (arg3 : Memref sig .tc .vmem S2048x128 .bf16) (harg3 : arg3.IsWhole) (arg4 : Memref sig .tc .vmem S1024x128 .f32) (harg4 : arg4.IsWhole)
    (arg5 : Memref sig .tc .vmem S1024x128 .f32) (harg5 : arg5.IsWhole) (hc0 : ¬cond1_0 i) (hc1 : cond1_1 i)
    (x0 : Vec F S1024x2048 .f32) (x1 : Vec F S2048x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero off_zero1 inb_S1024x128_S1024x128_0_0 y⟩)]
    rw [View.canon_cons_unit_zero (S := S1024x128) off_zero1, View.readCov_unit_zero (S := S1024x128) _ off_zero1]
    simp only [View.readAt_eq_ld, View.ld_unit_zero (S := S1024x2048) off_zero1, View.ld_unit_zero (S := S2048x128) off_zero1, View.ld_unit_zero (S := S1024x128) off_zero1]
  iexists _; isplitr
  swap; · iexact H3
  ipureintro
  sl_unfold_words
  rw [View.read_writes_eq_canon _ _ _ (fun y => ⟨_, List.mem_cons_self, View.mem_set_unit_zero off_zero1 inb_S1024x128_S1024x128_0_0 y⟩)]
  rw [View.canon_cons_unit_zero (S := S1024x128) off_zero1]
  simp only [View.readAt_eq_ld, View.ld_unit_zero (S := S1024x2048) off_zero1, View.ld_unit_zero (S := S2048x128) off_zero1, View.ld_unit_zero (S := S1024x128) off_zero1]

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand as a memref. -/
abbrev scM1 : Memref sig .tc .vmem S1024x128 .f32 := Memref.whole cc1_scratch0

/-- What the accumulator holds after the body at position `n` of the grid: at the first point of a row of the grid
    (`n` a multiple of 8) the block product added to the zero it was just reset to, at any other point the block product
    added to what the point before left. -/
def accAt1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬ t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The scoped buffers of the core that this region neither stages nor uses: the other region's six staging buffers,
    each whole at some contents.  They ride through the region untouched. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region invariant before position `n`: before the first point nothing is said of the scoped buffers the region
    does not stage; afterwards the accumulator holds what the point before left, the other region's staging buffers beside it. -/
def PhiS1 (c : Dev nD) : (n : ℕ) → n ≤ cfg1.N → sProp 𝕄
  | 0, _ => Pipeline.ΦA spec1 c
  | n + 1, hn => iprop(iprop(otherScoped1 (F := F) c ∗ owns (c : Thread nD τ) scM1 fullShare (accAt1 V c n hn)) ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
/-- The output block, where it is written back, is the accumulator. -/
theorem after1_2 (c : Dev nD) (t : Fin cfg1.N) : (dat1 V c).after 2 t = accAt1 V c t.val t.isLt := by dsimp only [dat1]

/-- An input window's current staging buffer holds its block at every point, whether the point fetches it or not:
    a point that does not fetch has the same block index as the one before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(otherScoped1 (F := F) c ∗ owns (c : Thread nD τ) scM1 fullShare (accAt1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(otherScoped1 (F := F) c ∗ owns (c : Thread nD τ) scM1 fullShare (accAt1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region entails: the other region's staging buffers, the accumulator's buffer as a memref
    owned at some contents, and the generator register. -/
theorem PhiA1_split (c : Dev nD) :
    (Pipeline.ΦA spec1 c : sProp 𝕄)
      ⊢ iprop(iprop(otherScoped1 (F := F) c ∗ (∃ d, owns (c : Thread nD τ) scM1 fullShare d)) ∗ (∃ r, prngReg c r)) := by
  unfold Pipeline.ΦA otherScoped1; rw [scopedRest1_eq]; simp only [scM1, owns_whole]
  iintro ⟨⟨A0, A1, A2, A3, A4, A5, S⟩, Hg⟩
  isplitr [Hg]
  swap; · iexact Hg
  isplitr [S]
  swap; · iexact S
  isplitl [A0]; · iexact A0
  isplitl [A1]; · iexact A1
  isplitl [A2]; · iexact A2
  isplitl [A3]; · iexact A3
  isplitl [A4]; · iexact A4
  iexact A5

/-- Conversely, those three give back what the launch handed the region. -/
theorem PhiA1_join (c : Dev nD) :
    iprop(iprop(otherScoped1 (F := F) c ∗ (∃ d, owns (c : Thread nD τ) scM1 fullShare d)) ∗ (∃ r, prngReg c r))
      ⊢ (Pipeline.ΦA spec1 c : sProp 𝕄) := by
  unfold Pipeline.ΦA otherScoped1; rw [scopedRest1_eq]; simp only [scM1, owns_whole]
  iintro ⟨⟨⟨A0, A1, A2, A3, A4, A5⟩, S⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  iexact S

/-- So the two are one proposition. -/
theorem PhiA1_eq (c : Dev nD) :
    (Pipeline.ΦA spec1 c : sProp 𝕄)
      = iprop(iprop(otherScoped1 (F := F) c ∗ (∃ d, owns (c : Thread nD τ) scM1 fullShare d)) ∗ (∃ r, prngReg c r)) :=
  Idealize.SL.BI.Entails.antisymm (PhiA1_split c) (PhiA1_join c)

/-- What the body is called with at point `t`, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point: the inputs' buffers hold their blocks; the position modulo 8 says which case the point is in;
    the invariant hands the body the accumulator at what the point before left (at anything at the very first point) and
    takes it back at this point's contents; the output's buffer is handed back untouched where the point does not write
    it back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have h1 : ¬ t.val % 8 = 7 := by omega
    rw [Dat.leavesExact_idle (dat1 V c) 2 t (idleAt1_2 t h1) (noFlush1_2 t h1)]
    rw [accAt1_first V c t h0]
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩⟩
      iapply (sound_kernel1_A c Set.univ _ _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Hr, HS⟩, Hg⟩, Ho, ⟨%d0, H0⟩, ⟨%d1, H1⟩, ⟨%d2, H2⟩⟩
      iapply (sound_kernel1_A c Set.univ _ _ _ _ _ _ _ _ _ ((hcond1_0 t).mpr h0) (fun h => h1 ((hcond1_1 t).mp h)) (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2
  · have hz : t.val ≠ 0 := by omega
    rw [PhiS1_castSucc V c t, PhiS1_pos V c _ _ hz]
    by_cases h1 : t.val % 8 = 7
    · rw [show (dat1 V c).leavesExact 2 t = owns (c : Thread nD τ) (st1_2 t) fullShare ((dat1 V c).after 2 t) from by
        unfold Dat.leavesExact; rw [liveAt1_2 t h1], after1_2]
      rw [accAt1_next V c t h0]
      iintro ⟨⟨⟨Hr, HS⟩, Hg⟩, Ho, ⟨%d0, H0⟩, ⟨%d1, H1⟩, ⟨%d2, H2⟩⟩
      iapply (sound_kernel1_C c Set.univ _ _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      rw [accAt1_next V c t h0]
      iintro ⟨⟨⟨Hr, HS⟩, Hg⟩, Ho, ⟨%d0, H0⟩, ⟨%d1, H1⟩, ⟨%d2, H2⟩⟩
      iapply (sound_kernel1_B c Set.univ _ _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  all_goals exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Hr, HS⟩, Hg⟩
  isplitl [Hr HS]
  · isplitl [Hr]; · iexact Hr
    iexists _; iexact HS
  iexact Hg

end

end Cert.KernelIdeal.Fr

end
-- ==== Proof.KI.MainRun.lean ====
/-
  The run of the whole program: one host operation (the bias vector reshaped to a row), then the linear region, then
  the aggregation region.  The contents of the core's unscoped buffers are followed through the three items as a fold
  from the launch memory; each region is entered from the contents the item before left and leaves its arrays at what
  its write-backs made of them.  From the one run come both the frame (every argument array ends as launched) and the
  name of what the result array holds at the end.
-/
import proofs.«112089_j31421980738083_1_alg».proof.Proof.KI.RegionLin
import proofs.«112089_j31421980738083_1_alg».proof.Proof.KI.RegionAgg

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operation (the linear region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the linear region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the aggregation region's exit (the end of the program). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The host operation writes only the bias row's buffer. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array at the end is what the aggregation region's write-backs left. -/
theorem W3_main_v2 (c : Dev nD) : W3 m ρ c (Proc.devRef .tc main_v2) = (dat1 (V2 m ρ) c).arrAt 2 cfg1.N :=
  W3_arr m ρ c 2
/-- The aggregation region finds the node values the linear region's write-backs left, -/
theorem V2_main_v1 (c : Dev nD) : V2 m ρ c main_v1 = (dat0 (V1 m ρ) c).arrAt 3 cfg0.N :=
  W2_arr m ρ c 3
/-- and the matrix as launched. -/
theorem V2_main_arg1 (c : Dev nD) : V2 m ρ c main_arg1 = m ((c : Thread nD τ).loc main_arg1) :=
  (W2_of_ne m ρ c main_arg1 (by decide)).trans ((W1_of_ne m ρ c main_arg1 (by decide)).trans rfl)
/-- The linear region finds the features and the weights as launched. -/
theorem V1_main_arg0 (c : Dev nD) : V1 m ρ c main_arg0 = m ((c : Thread nD τ).loc main_arg0) :=
  (W1_of_ne m ρ c main_arg0 (by decide)).trans rfl
theorem V1_main_arg2 (c : Dev nD) : V1 m ρ c main_arg2 = m ((c : Thread nD τ).loc main_arg2) :=
  (W1_of_ne m ρ c main_arg2 (by decide)).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The linear region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from every unscoped buffer at `W2`, left at `W3`.  Its invariant starts as the
    launch's and ends giving the scoped buffers back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V2 m ρ) c
    iintro ⟨Hp, -, Hr⟩
    iapply h1
    unfold Pipeline.ΦA
    isplitl [Hr]; · iexact Hr
    iexact Hp
  hout c := by
    rw [Pipeline.ownSems0_none]
    have h1 : (pdats m ρ 1 c).Φ (Fin.last _) ⊢ Pipeline.ΦA spec1 c := hout1 (V2 m ρ) c
    iintro H
    ihave H' := h1 $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN.  From any memory with zero counters every weakly fair execution of the program terminates without a fault,
    and at the end the result array holds what the aggregation region's write-backs left, each argument array what it
    held at launch. -/
theorem run : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Fr

end
-- ==== Proof.Spec.lean ====
/-
  The layer this certificate is about, as plain functions on the extended reals.

  A graph-convolution layer over 16384 nodes: first a linear map on each node's 256 features to 128 outputs,
  `h (n, o) = (sum over i of x (n, i) * W (o, i)) + b (o)`, then the aggregation over the dense 16384 x 16384 matrix,
  `out (r, o) = sum over n of A (r, n) * h (n, o)`.  The kernel computes the aggregation as eight partial sums, one per
  block of 2048 consecutive nodes, added into an accumulator that starts at zero; regrouping a finite sum of extended
  reals needs only that addition is commutative and associative, so no finiteness of the inputs is used.
-/
import Idealize.ShloMosaic.Lib.ValueIdx
import Idealize.ShloMosaic.PureOps.Ideal.Laws
import Mathlib.Algebra.BigOperators.Fin
import Mathlib.Algebra.BigOperators.Group.Finset.Basic
import Mathlib.Data.EReal.Basic

noncomputable section

namespace Cert.Spec

open Idealize.ShloMosaic Idealize.ShloMosaic.ValueIdx

/-- A vector of 128 entries as the one row of a 1 x 128 array. -/
def row (b : (⟨1, ![128]⟩ : Shape).Idx → EReal) : (⟨2, ![1, 128]⟩ : Shape).Idx → EReal :=
  fun j => b (ix1 (j 1))

/-- The linear map: entry (n, o) is the inner product of node n's features with output o's weights, plus the bias row's
    entry o. -/
def lin (x : (⟨2, ![16384, 256]⟩ : Shape).Idx → EReal) (W : (⟨2, ![128, 256]⟩ : Shape).Idx → EReal)
    (b : (⟨2, ![1, 128]⟩ : Shape).Idx → EReal) : (⟨2, ![16384, 128]⟩ : Shape).Idx → EReal :=
  fun j => (∑ i : Fin 256, x (ix2 (j 0) i) * W (ix2 (j 1) i)) + b (ix2 (0 : Fin 1) (j 1))

/-- The aggregation: entry (r, o) is the inner product of row r of the matrix with column o of the node values. -/
def agg (A : (⟨2, ![16384, 16384]⟩ : Shape).Idx → EReal) (h : (⟨2, ![16384, 128]⟩ : Shape).Idx → EReal) :
    (⟨2, ![16384, 128]⟩ : Shape).Idx → EReal :=
  fun j => ∑ n : Fin 16384, A (ix2 (j 0) n) * h (ix2 n (j 1))

/-- The whole layer. -/
def layer (x : (⟨2, ![16384, 256]⟩ : Shape).Idx → EReal) (A : (⟨2, ![16384, 16384]⟩ : Shape).Idx → EReal)
    (W : (⟨2, ![128, 256]⟩ : Shape).Idx → EReal) (b : (⟨1, ![128]⟩ : Shape).Idx → EReal) :
    (⟨2, ![16384, 128]⟩ : Shape).Idx → EReal :=
  agg A (lin x W (row b))

/-- The partial aggregation over the first `k` blocks of 2048 nodes, started from zero and accumulated block by block
    in the order the kernel adds them: `acc (k + 1) = acc k + (block k's inner product)`. -/
def partialAgg (f : ℕ → EReal) : ℕ → EReal
  | 0 => 0
  | k + 1 => partialAgg f k + ∑ j : Fin 2048, f (2048 * k + j.val)

/-- After `k` blocks the accumulator holds the sum of `f` over the first `2048 * k` naturals: the next block's
    sum, over `2048 * k + j` for `j < 2048`, extends the range by 2048. -/
theorem partialAgg_range (f : ℕ → EReal) (k : ℕ) :
    partialAgg f k = ∑ n ∈ Finset.range (2048 * k), f n := by
  induction k with
  | zero => simp [partialAgg]
  | succ k ih =>
    rw [partialAgg, ih, Nat.mul_add_one, Finset.sum_range_add, Finset.sum_range (fun x => f (2048 * k + x))]

/-- Eight blocks of 2048 exhaust the 16384 nodes: the accumulated partial sums are the whole sum. -/
theorem partialAgg_eight (f : ℕ → EReal) : partialAgg f 8 = ∑ n : Fin 16384, f n.val := by
  rw [partialAgg_range, Finset.sum_range]

end Cert.Spec

end
-- ==== Proof.ValueLin.lean ====
/-
  The value of the first kernel region: after its eight grid points the output array holds the linear map.

  At each point the body stores, into its block of 2048 rows of the output, the matrix product of the point's block of
  node features with the transposed weights, plus the bias row on every row; on the extended reals a change of float
  format is the identity, so entry (p, q) of the block is the inner product of feature row p with weight row q plus bias
  entry q.  Point t's feature block is rows 2048 t, …, 2048 t + 2047 of the feature array and its output block is the
  same rows of the output array, while the weights and the bias are read whole at every point; so what point t writes
  back is block t of one function of the three arrays, the linear map.  The eight blocks tile the 16384 rows (row r lies
  in block r / 2048), hence the whole output array is that function.
-/
import proofs.«112089_j31421980738083_1_alg».proof.Proof.KI.RegionLin
import proofs.«112089_j31421980738083_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ValueLin

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's arithmetic at an index -/

/-- The product's left operand is read at the output's row on axis 0, -/
theorem lhsLin_0 (i : S2048x128.Idx) (q : dot_S2048x256_S128x256_S2048x128_1_1_0_0_n_n.contr.Idx) :
    (dot_S2048x256_S128x256_S2048x128_1_1_0_0_n_n.lhsIdx i q 0).val = (i 0).val := by
  unfold DotDims.lhsIdx
  rw [dif_neg (show ¬(0 : Fin S2048x256.rank) ∈ dot_S2048x256_S128x256_S2048x128_1_1_0_0_n_n.lhsBatch by decide), dif_pos (show (0 : Fin S2048x256.rank) ∈ dot_S2048x256_S128x256_S2048x128_1_1_0_0_n_n.lhsNonContracting by decide)]
  rfl
/-- and at the contraction index on axis 1. -/
theorem lhsLin_1 (i : S2048x128.Idx) (q : dot_S2048x256_S128x256_S2048x128_1_1_0_0_n_n.contr.Idx) :
    (dot_S2048x256_S128x256_S2048x128_1_1_0_0_n_n.lhsIdx i q 1).val = (q ⟨0, by decide⟩).val :=
  dot_S2048x256_S128x256_S2048x128_1_1_0_0_n_n.lhsIdx_val_of_single rfl i q
/-- The right operand, the weights, is read at the output's column on axis 0: the weights enter transposed, -/
theorem rhsLin_0 (i : S2048x128.Idx) (q : dot_S2048x256_S128x256_S2048x128_1_1_0_0_n_n.contr.Idx) :
    (dot_S2048x256_S128x256_S2048x128_1_1_0_0_n_n.rhsIdx i q 0).val = (i 1).val := by
  unfold DotDims.rhsIdx
  rw [dif_neg (show ¬(0 : Fin S128x256.rank) ∈ dot_S2048x256_S128x256_S2048x128_1_1_0_0_n_n.rhsBatch by decide), dif_pos (show (0 : Fin S128x256.rank) ∈ dot_S2048x256_S128x256_S2048x128_1_1_0_0_n_n.rhsNonContracting by decide)]
  rfl
/-- and at the contraction index on axis 1. -/
theorem rhsLin_1 (i : S2048x128.Idx) (q : dot_S2048x256_S128x256_S2048x128_1_1_0_0_n_n.contr.Idx) :
    (dot_S2048x256_S128x256_S2048x128_1_1_0_0_n_n.rhsIdx i q 1).val = (q ⟨0, by decide⟩).val :=
  dot_S2048x256_S128x256_S2048x128_1_1_0_0_n_n.rhsIdx_val_of_single rfl i q

/-- The product into the zero accumulator at entry (p, q): the inner product of row p of the left operand with row q of
    the right one, over the 256 features. -/
theorem matmulLin_apply (l : FVec Ideal S2048x256 .bf16) (r : FVec Ideal S128x256 .bf16) (p : Fin 2048) (q : Fin 128) :
    FloatOps.matmul (F := Ideal) dot_S2048x256_S128x256_S2048x128_1_1_0_0_n_n none l r (constant S2048x128 .f32 0x00000000#32) (ix2 p q)
      = ∑ k : Fin 256, l (ix2 p k) * r (ix2 q k) := by
  rw [Ideal.matmul_constant_zero_apply, ← Equiv.sum_comp (ValueIdx.contrEquiv1 dot_S2048x256_S128x256_S2048x128_1_1_0_0_n_n 256 rfl rfl).symm]
  refine Finset.sum_congr rfl fun k _ => ?_
  have hk := ValueIdx.contrEquiv1_symm_val dot_S2048x256_S128x256_S2048x128_1_1_0_0_n_n 256 rfl rfl k
  have el : dot_S2048x256_S128x256_S2048x128_1_1_0_0_n_n.lhsIdx (ix2 p q) ((ValueIdx.contrEquiv1 dot_S2048x256_S128x256_S2048x128_1_1_0_0_n_n 256 rfl rfl).symm k) = ix2 p k := funext fun a => Fin.ext (by
    match a with
    | ⟨0, _⟩ => exact lhsLin_0 _ _
    | ⟨1, _⟩ => exact (lhsLin_1 _ _).trans hk)
  have er : dot_S2048x256_S128x256_S2048x128_1_1_0_0_n_n.rhsIdx (ix2 p q) ((ValueIdx.contrEquiv1 dot_S2048x256_S128x256_S2048x128_1_1_0_0_n_n 256 rfl rfl).symm k) = ix2 q k := funext fun a => Fin.ext (by
    match a with
    | ⟨0, _⟩ => exact rhsLin_0 _ _
    | ⟨1, _⟩ => exact (rhsLin_1 _ _).trans hk)
  rw [el, er]

/-- The body's value at entry (p, q) of its block: the inner product of the block's row p of features with row q of the
    weights, plus entry q of the bias row.  A change of float format is the identity on the extended reals. -/
theorem pay_apply (x0 : Vec Ideal S2048x256 .f32) (x1 : Vec Ideal S128x256 .f32) (x2 : Vec Ideal S1x128 .f32) (p : Fin 2048) (q : Fin 128) :
    k0_pay1 (F := Ideal) x0 x1 x2 (ix2 p q) = (∑ i : Fin 256, x0 (ix2 p i) * x1 (ix2 q i)) + x2 (ix2 (0 : Fin 1) q) := by
  unfold k0_pay1
  show FloatOps.matmul (F := Ideal) dot_S2048x256_S128x256_S2048x128_1_1_0_0_n_n none x0 x1 (constant S2048x128 .f32 0x00000000#32) (ix2 p q)
      + broadcastTo S2048x128 (shapeCast S1x128 x2 shapeCasts_S1x128_S1x128) broadcasts_S1x128_S2048x128 (ix2 p q) = _
  rw [shapeCast_self]
  refine congrArg₂ (· + ·) (matmulLin_apply x0 x1 p q) ?_
  exact broadcastTo_1b_ab_apply x2 broadcasts_S1x128_S2048x128 p q

/-! ## From the blocks to the array -/

/-- The zero offsets, however spelt. -/
theorem hz : (![0, 0] : Fin 2 → Nat) = fun _ => 0 := funext fun a => by fin_cases a <;> rfl

/-- The windows' block indices at each of the eight grid points: the output and the features move together, block `t` of
    rows at point `t`; the weights and the bias row stay at their one block. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- One block of the linear map.  If the feature block `x0` is the rows `s, s + 1, …` of the feature array `X`, and the
    weight and bias blocks are the whole arrays, then the body's value at `y` is the linear map's at the array index `e`
    that lies `s` rows below `y`. -/
theorem block_lin (X : S16384x256.Idx → EReal) (W : S128x256.Idx → EReal) (B : S1x128.Idx → EReal)
    (x0 : Vec Ideal S2048x256 .f32) (x1 : Vec Ideal S128x256 .f32) (x2 : Vec Ideal S1x128 .f32)
    (y : S2048x128.Idx) (e : S16384x128.Idx) (s : ℕ)
    (he0 : (e 0).val = s + (y 0).val) (he1 : (e 1).val = (y 1).val)
    (h0 : ∀ (a : S2048x256.Idx) (b : S16384x256.Idx), (b 0).val = s + (a 0).val → (b 1).val = (a 1).val → x0 a = X b)
    (h1 : x1 = W) (h2 : x2 = B) :
    k0_pay1 (F := Ideal) x0 x1 x2 y = Cert.Spec.lin X W B e := by
  obtain ⟨p, q, rfl⟩ : ∃ (p : Fin 2048) (q : Fin 128), y = ix2 p q := ⟨y 0, y 1, eq_ix2 y⟩
  obtain ⟨r, q', rfl⟩ : ∃ (r : Fin 16384) (q' : Fin 128), e = ix2 r q' := ⟨e 0, e 1, eq_ix2 e⟩
  obtain rfl : q = q' := Fin.ext he1.symm
  subst h1; subst h2
  rw [pay_apply]
  show _ = (∑ i : Fin 256, X (ix2 r i) * x1 (ix2 q i)) + x2 (ix2 (0 : Fin 1) q)
  refine congrArg (· + x2 (ix2 (0 : Fin 1) q)) (Finset.sum_congr rfl fun i _ => ?_)
  rw [h0 (ix2 p i) (ix2 r i) he0 rfl]

section
variable (V : (c : Dev nD) → (b : Ref sig .tc) → Buf (Elt Ideal) ((c : Thread nD τ).loc b))

/-- What point `t` writes back is block `t` of the linear map of the arrays as the region finds them. -/
theorem flushed_lin (c : Dev nD) (t : Fin cfg0.N) :
    (dat0 (F := Ideal) V c).flushed 3 t
      = ((cfg0.win 3).blk t).view.read (Elt Ideal) (Cert.Spec.lin (V c main_arg0) (V c main_arg2) (V c main_v0)) := by
  show (cfg0.win 3).cut (grid0.coords t) ((dat0 (F := Ideal) V c).after 3 t) = _
  rw [after0_3]
  unfold out0_3
  rw [View.canon_unit_zero hz]
  simp only [View.ld_unit_zero (S := S2048x256) hz, View.ld_unit_zero (S := S128x256) hz, View.ld_unit_zero (S := S1x128) hz]
  obtain ⟨e30, e31, e00, e01, e10, e11, e20, e21⟩ := idx_facts t
  funext j
  show k0_pay1 (F := Ideal) (iblk0 V c 0 t) (iblk0 V c 1 t) (iblk0 V c 2 t) j
      = Cert.Spec.lin (V c main_arg0) (V c main_arg2) (V c main_v0) (((cfg0.win 3).blk t).view.emb j)
  refine block_lin (V c main_arg0) (V c main_arg2) (V c main_v0) (iblk0 V c 0 t) (iblk0 V c 1 t) (iblk0 V c 2 t) j
    (((cfg0.win 3).blk t).view.emb j) (t.val * 2048) ?_ ?_ ?_ ?_ ?_
  · show win0_3.index t (0 : Fin 2) * 2048 + 1 * (j 0).val = t.val * 2048 + (j 0).val
    omega
  · show win0_3.index t (1 : Fin 2) * 128 + 1 * (j 1).val = (j 1).val
    omega
  · intro a b hb0 hb1
    show V c main_arg0 (((cfg0.win 0).blk t).view.emb a) = V c main_arg0 b
    refine congrArg (V c main_arg0) (funext fun ax => Fin.ext ?_)
    match ax with
    | ⟨0, _⟩ => show win0_0.index t (0 : Fin 2) * 2048 + 1 * (a 0).val = (b 0).val; omega
    | ⟨1, _⟩ => show win0_0.index t (1 : Fin 2) * 256 + 1 * (a 1).val = (b 1).val; omega
  · funext a
    show V c main_arg2 (((cfg0.win 1).blk t).view.emb a) = V c main_arg2 a
    refine congrArg (V c main_arg2) (funext fun ax => Fin.ext ?_)
    match ax with
    | ⟨0, _⟩ => show win0_1.index t (0 : Fin 2) * 128 + 1 * (a 0).val = (a 0).val; omega
    | ⟨1, _⟩ => show win0_1.index t (1 : Fin 2) * 256 + 1 * (a 1).val = (a 1).val; omega
  · funext a
    show V c main_v0 (((cfg0.win 2).blk t).view.emb a) = V c main_v0 a
    refine congrArg (V c main_v0) (funext fun ax => Fin.ext ?_)
    match ax with
    | ⟨0, _⟩ => show win0_2.index t (0 : Fin 2) * 1 + 1 * (a 0).val = (a 0).val; omega
    | ⟨1, _⟩ => show win0_2.index t (1 : Fin 2) * 128 + 1 * (a 1).val = (a 1).val; omega

/-- An index of the output array is in point `t`'s block iff each coordinate is in the block's range on its axis. -/
theorem mem_blk (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1).slice (win0_3.rect t)).set ↔ _
  rw [View.set_slice_whole, Rect.mem_set_unit]
  exact Iff.rfl

/-- Every entry of the output array is written: row `r` lies in the block of point `r / 2048`. -/
theorem cover_lin (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : (i 0).val / 2048 < cfg0.N := by rw [show cfg0.N = 8 from N_0]; omega
  obtain ⟨e30, e31, -⟩ := idx_facts ⟨(i 0).val / 2048, hN⟩
  have e30' : win0_3.index ⟨(i 0).val / 2048, hN⟩ (0 : Fin 2) = (i 0).val / 2048 := e30
  refine ⟨⟨(i 0).val / 2048, hN⟩, flush0_3 _, ?_⟩
  rw [mem_blk]
  intro a
  match a with
  | ⟨0, _⟩ =>
    show win0_3.index ⟨(i 0).val / 2048, hN⟩ (0 : Fin 2) * 2048 ≤ (i 0).val ∧ (i 0).val < win0_3.index ⟨(i 0).val / 2048, hN⟩ (0 : Fin 2) * 2048 + 2048
    omega
  | ⟨1, _⟩ =>
    show win0_3.index ⟨(i 0).val / 2048, hN⟩ (1 : Fin 2) * 128 ≤ (i 1).val ∧ (i 1).val < win0_3.index ⟨(i 0).val / 2048, hN⟩ (1 : Fin 2) * 128 + 128
    omega

/-- The region's output array after its eight points: the linear map of the features, the weights and the bias row as
    the region finds them. -/
theorem lin_value (c : Dev nD) :
    (dat0 (F := Ideal) V c).arrAt 3 cfg0.N = Cert.Spec.lin (V c main_arg0) (V c main_arg2) (V c main_v0) :=
  (dat0 (F := Ideal) V c).arrAt_eq_of_cover 3 (Cert.Spec.lin (V c main_arg0) (V c main_arg2) (V c main_v0))
    (fun t _ => flushed_lin V c t) cover_lin

end

end Cert.ValueLin

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.ValueAgg.lean ====
/-
  The value of the aggregation region over the extended reals.

  The region walks a 16 x 8 grid in row-major order.  At point t = 8 i + k it multiplies block (i, k) of the
  16384 x 16384 matrix (1024 rows, 2048 columns) with block k of the 16384 x 128 node values (2048 rows) and adds
  the product to a 1024 x 128 accumulator that was set to zero at k = 0.  So after point 8 i + k the accumulator's
  entry (p, q) is the sum, over the first 2048 (k + 1) nodes n, of A (1024 i + p, n) * h (n, q), added block by
  block; after k = 7 that is the whole inner product of row 1024 i + p of the matrix with column q of the node
  values, and this is the point at which the accumulator is written to rows 1024 i .. 1024 i + 1023 of the result.
  The sixteen points with k = 7 cover all 16384 rows, so the result array ends holding the aggregation.
-/
import proofs.«112089_j31421980738083_1_alg».proof.Proof.KI.RegionAgg
import proofs.«112089_j31421980738083_1_alg».proof.Proof.Spec
import proofs.«112089_j31421980738083_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ValueAgg

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.Sem
open Idealize.ShloMosaic.Pipeline (Dat Cfg Window)

/-- The reset value: every entry of the zero splat is the extended real 0. -/
theorem zero_apply (p : Fin 1024) (q : Fin 128) : k1_pay1 (F := Ideal) (ix2 p q) = 0 := by
  unfold k1_pay1
  rw [shapeCast_self]
  show Ideal.ofBits .f32 0x00000000#32 = 0
  exact Ideal.ofBits_zero_f32

/-- One step of the accumulation at an entry. -/
theorem step_apply (a : Vec Ideal S1024x2048 .f32) (hb : Vec Ideal S2048x128 .bf16) (s : Vec Ideal S1024x128 .f32)
    (p : Fin 1024) (q : Fin 128) :
    k1_pay2 (F := Ideal) a hb s (ix2 p q) = s (ix2 p q) + ∑ j : Fin 2048, a (ix2 p j) * hb (ix2 j q) := by
  unfold k1_pay2
  rw [shapeCast_self, shapeCast_self]
  show (s (ix2 p q) : EReal) + (FloatOps.matmul (F := Ideal) dot_S1024x2048_S2048x128_S1024x128_1_0_0_1_n_n none a hb (constant (F := Ideal) S1024x128 .f32 0x00000000#32) (ix2 p q) : EReal) = _
  exact congrArg (s (ix2 p q) + ·) (Cert.PlainDot.matmul_zero_apply (M := 1024) (K := 2048) (N := 128) none a hb (ix2 p q))

variable (V : (c : Dev nD) → (b : Ref sig .tc) → Buf (Elt Ideal) ((c : Thread nD τ).loc b))

/-- The matrix, as a function on its literal index type. -/
abbrev Amat (c : Dev nD) : S16384x16384.Idx → EReal := V c main_arg1
/-- The node values. -/
abbrev Hmat (c : Dev nD) : S16384x128.Idx → EReal := V c main_v1

/-- The matrix block at a point. -/
abbrev Ablk (c : Dev nD) (t : Fin cfg1.N) : Vec Ideal S1024x2048 .f32 := iblk1 V c 0 t
/-- The node-value block at a point. -/
abbrev Hblk (c : Dev nD) (t : Fin cfg1.N) : Vec Ideal S2048x128 .bf16 := iblk1 V c 1 t

/-- The grid has 16 * 8 points. -/
theorem N1 : cfg1.N = 128 := by decide

/-- The printed index maps over the grid: point t is row block t / 8, column block t % 8. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The matrix block at point t, entry (p, j), is the matrix at row 1024 (t / 8) + p, column 2048 (t % 8) + j. -/
theorem Ablk_apply (c : Dev nD) (t : Fin cfg1.N) (p : Fin 1024) (j : Fin 2048)
    (r : Fin 16384) (n : Fin 16384) (hr : r.val = 1024 * (t.val / 8) + p.val) (hn : n.val = 2048 * (t.val % 8) + j.val) :
    Ablk V c t (ix2 p j) = Amat V c (ix2 r n) := by
  obtain ⟨e0, e1, -⟩ := idx_facts t
  show V c main_arg1 (((cfg1.win 0).blk t).view.emb (ix2 p j)) = V c main_arg1 (ix2 r n)
  refine congrArg (V c main_arg1) ?_
  funext a; apply Fin.ext
  match a with
  | ⟨0, _⟩ => show win1_0.index t (0 : Fin 2) * 1024 + 1 * p.val = r.val; omega
  | ⟨1, _⟩ => show win1_0.index t (1 : Fin 2) * 2048 + 1 * j.val = n.val; omega

/-- The node-value block at point t, entry (j, q), is the node values at row 2048 (t % 8) + j, column q. -/
theorem Hblk_apply (c : Dev nD) (t : Fin cfg1.N) (j : Fin 2048) (q : Fin 128)
    (n : Fin 16384) (hn : n.val = 2048 * (t.val % 8) + j.val) :
    Hblk V c t (ix2 j q) = Hmat V c (ix2 n q) := by
  obtain ⟨-, -, e0, e1, -⟩ := idx_facts t
  show V c main_v1 (((cfg1.win 1).blk t).view.emb (ix2 j q)) = V c main_v1 (ix2 n q)
  refine congrArg (V c main_v1) ?_
  funext a; apply Fin.ext
  match a with
  | ⟨0, _⟩ => show win1_1.index t (0 : Fin 2) * 2048 + 1 * j.val = n.val; omega
  | ⟨1, _⟩ => show win1_1.index t (1 : Fin 2) * 128 + 1 * q.val = q.val; omega

/-- The product the aggregation sums at node n, for output entry (r, q); zero past the last node, so that it is a
    function on all naturals. -/
def term (c : Dev nD) (r : Fin 16384) (q : Fin 128) (n : ℕ) : EReal :=
  if hn : n < 16384 then Amat V c (ix2 r ⟨n, hn⟩) * Hmat V c (ix2 ⟨n, hn⟩ q) else 0

/-- The block product at point t, at entry (p, q), is the sum of the products over the 2048 nodes of column block t % 8,
    for the row 1024 * (t / 8) + p of the matrix. -/
theorem block_sum (c : Dev nD) (t : Fin cfg1.N) (p : Fin 1024) (q : Fin 128) (r : Fin 16384)
    (hr : r.val = 1024 * (t.val / 8) + p.val) :
    (∑ j : Fin 2048, Ablk V c t (ix2 p j) * Hblk V c t (ix2 j q))
      = ∑ j : Fin 2048, term V c r q (2048 * (t.val % 8) + j.val) := by
  refine Finset.sum_congr rfl fun j _ => ?_
  have hlt : 2048 * (t.val % 8) + j.val < 16384 := by have := j.isLt; omega
  rw [Ablk_apply V c t p j r ⟨_, hlt⟩ hr rfl, Hblk_apply V c t j q ⟨_, hlt⟩ rfl]
  unfold term
  rw [dif_pos hlt]

/-- One more block extends the partial aggregation by that block's sum. -/
theorem partialAgg_succ (f : ℕ → EReal) (k : ℕ) :
    Cert.Spec.partialAgg f (k + 1) = Cert.Spec.partialAgg f k + ∑ j : Fin 2048, f (2048 * k + j.val) := rfl

/-- The accumulator after point n = 8 i + k, at entry (p, q): the partial aggregation over the first k + 1 column blocks,
    for row 1024 i + p. -/
theorem acc_eq (c : Dev nD) : ∀ (n : ℕ) (hn : n < cfg1.N) (p : Fin 1024) (q : Fin 128) (r : Fin 16384)
    (hr : r.val = 1024 * (n / 8) + p.val),
    accAt1 V c n hn (ix2 p q) = Cert.Spec.partialAgg (term V c r q) (n % 8 + 1)
  | 0, hn, p, q, r, hr => by
    have h0 : (⟨0, hn⟩ : Fin cfg1.N).val % 8 = 0 := rfl
    refine (congrFun (accAt1_first V c ⟨0, hn⟩ h0) (ix2 p q)).trans ?_
    refine (step_apply (Ablk V c ⟨0, hn⟩) (Hblk V c ⟨0, hn⟩) (k1_pay1 (F := Ideal)) p q).trans ?_
    rw [zero_apply p q, block_sum V c ⟨0, hn⟩ p q r hr]
    rfl
  | n + 1, hn, p, q, r, hr => by
    by_cases h : (n + 1) % 8 = 0
    · have h0 : (⟨n + 1, hn⟩ : Fin cfg1.N).val % 8 = 0 := h
      refine (congrFun (accAt1_first V c ⟨n + 1, hn⟩ h0) (ix2 p q)).trans ?_
      refine (step_apply (Ablk V c ⟨n + 1, hn⟩) (Hblk V c ⟨n + 1, hn⟩) (k1_pay1 (F := Ideal)) p q).trans ?_
      rw [zero_apply p q, block_sum V c ⟨n + 1, hn⟩ p q r hr]
      show 0 + ∑ j : Fin 2048, term V c r q (2048 * ((n + 1) % 8) + j.val) = _
      rw [h]
      rfl
    · have h0 : ¬ (⟨n + 1, hn⟩ : Fin cfg1.N).val % 8 = 0 := h
      have hm : (n + 1) % 8 = n % 8 + 1 := by omega
      have hr' : r.val = 1024 * (n / 8) + p.val := by omega
      refine (congrFun (accAt1_next V c ⟨n + 1, hn⟩ h0) (ix2 p q)).trans ?_
      refine (step_apply (Ablk V c ⟨n + 1, hn⟩) (Hblk V c ⟨n + 1, hn⟩)
        (accAt1 V c ((⟨n + 1, hn⟩ : Fin cfg1.N).val - 1) (Nat.lt_of_le_of_lt (Nat.sub_le _ _) (⟨n + 1, hn⟩ : Fin cfg1.N).isLt)) p q).trans ?_
      rw [block_sum V c ⟨n + 1, hn⟩ p q r hr]
      show accAt1 V c n (Nat.lt_of_succ_lt hn) (ix2 p q) + ∑ j : Fin 2048, term V c r q (2048 * ((n + 1) % 8) + j.val) = _
      rw [hm, partialAgg_succ, acc_eq c n (Nat.lt_of_succ_lt hn) p q r hr']

/-- After the eighth column block the accumulator holds the whole aggregation for its row. -/
theorem acc_last (c : Dev nD) (t : Fin cfg1.N) (h7 : t.val % 8 = 7) (p : Fin 1024) (q : Fin 128) (r : Fin 16384)
    (hr : r.val = 1024 * (t.val / 8) + p.val) :
    accAt1 V c t.val t.isLt (ix2 p q) = Cert.Spec.agg (Amat V c) (Hmat V c) (ix2 r q) := by
  rw [acc_eq V c t.val t.isLt p q r hr, h7]
  show Cert.Spec.partialAgg (term V c r q) 8 = _
  rw [Cert.Spec.partialAgg_eight]
  refine Finset.sum_congr rfl fun n _ => ?_
  unfold term
  rw [dif_pos n.isLt]

/-- What the write-back moves of the output's staging contents, at an entry: the block is inside the array, so all of it. -/
theorem cut_apply (t : Fin cfg1.N) (X : Vec Ideal S1024x128 .f32) (p : Fin 1024) (q : Fin 128) :
    (cfg1.win 2).cut (grid1.coords t) X (ix2 p q) = X (ix2 p q) := rfl

/-- A function on the result's indices read through point t's block, at an entry. -/
theorem read_blk_apply (G : S16384x128.Idx → EReal) (t : Fin cfg1.N) (y : S1024x128.Idx) :
    ((cfg1.win 2).blk t).view.read (Elt Ideal) G y = G (((cfg1.win 2).blk t).view.emb y) := rfl

/-- What a point that writes back writes is its block of the aggregation. -/
theorem flushed_eq (c : Dev nD) (t : Fin cfg1.N) (hf : (cfg1.win 2).flush t = true) :
    (dat1 (F := Ideal) V c).flushed 2 t
      = ((cfg1.win 2).blk t).view.read (Elt Ideal) (Cert.Spec.agg (Amat V c) (Hmat V c)) := by
  have h7 : t.val % 8 = 7 := (flush1_2 t).mp hf
  have hN : t.val < 128 := N1 ▸ t.isLt
  obtain ⟨-, -, -, -, e0, e1⟩ := idx_facts t
  show (cfg1.win 2).cut (grid1.coords t) ((dat1 (F := Ideal) V c).after 2 t) = _
  rw [after1_2]
  funext y
  obtain ⟨p, q, rfl⟩ : ∃ (p : Fin 1024) (q : Fin 128), y = ix2 p q := ⟨y 0, y 1, eq_ix2 y⟩
  have hlt : 1024 * (t.val / 8) + p.val < 16384 := by have := p.isLt; omega
  refine (cut_apply t (accAt1 V c t.val t.isLt) p q).trans ?_
  refine Eq.trans ?_ (read_blk_apply (Cert.Spec.agg (Amat V c) (Hmat V c)) t (ix2 p q)).symm
  have he : ((cfg1.win 2).blk t).view.emb (ix2 p q) = ix2 (⟨1024 * (t.val / 8) + p.val, hlt⟩ : Fin 16384) q := by
    funext a; apply Fin.ext
    match a with
    | ⟨0, _⟩ => show win1_2.index t (0 : Fin 2) * 1024 + 1 * p.val = 1024 * (t.val / 8) + p.val; omega
    | ⟨1, _⟩ => show win1_2.index t (1 : Fin 2) * 128 + 1 * q.val = q.val; omega
  rw [he]
  exact acc_last V c t h7 p q ⟨1024 * (t.val / 8) + p.val, hlt⟩ rfl

/-- An index of the result is in point t's block iff each coordinate is in the block's range on its axis. -/
theorem mem_blk (t : Fin cfg1.N) (i : S16384x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v2).slice (win1_2.rect t)).set ↔ _
  rw [View.set_slice_whole, Rect.mem_set_unit]
  exact Iff.rfl

/-- Every row of the result lies in the block of the last point of its row of the grid. -/
theorem cover (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hlt : 8 * ((i 0).val / 1024) + 7 < cfg1.N := by rw [N1]; omega
  refine ⟨⟨8 * ((i 0).val / 1024) + 7, hlt⟩, (flush1_2 _).mpr (by show (8 * ((i 0).val / 1024) + 7) % 8 = 7; omega), ?_⟩
  obtain ⟨-, -, -, -, e0, e1⟩ := idx_facts ⟨8 * ((i 0).val / 1024) + 7, hlt⟩
  have e0' : win1_2.index ⟨8 * ((i 0).val / 1024) + 7, hlt⟩ (0 : Fin 2) = (i 0).val / 1024 := by
    rw [e0]; show (8 * ((i 0).val / 1024) + 7) / 8 = _; omega
  rw [mem_blk]
  intro a
  match a with
  | ⟨0, _⟩ => show win1_2.index ⟨8 * ((i 0).val / 1024) + 7, hlt⟩ (0 : Fin 2) * 1024 ≤ (i 0).val ∧ (i 0).val < win1_2.index ⟨8 * ((i 0).val / 1024) + 7, hlt⟩ (0 : Fin 2) * 1024 + 1024; rw [e0']; omega
  | ⟨1, _⟩ => show win1_2.index ⟨8 * ((i 0).val / 1024) + 7, hlt⟩ (1 : Fin 2) * 128 ≤ (i 1).val ∧ (i 1).val < win1_2.index ⟨8 * ((i 0).val / 1024) + 7, hlt⟩ (1 : Fin 2) * 128 + 128; rw [e1]; omega

/-- The result array after the region: the aggregation of the matrix and the node values as the region found them. -/
theorem agg_value (c : Dev nD) :
    (dat1 (F := Ideal) V c).arrAt 2 cfg1.N = Cert.Spec.agg (V c main_arg1) (V c main_v1) :=
  (dat1 (F := Ideal) V c).arrAt_eq_of_cover 2 (Cert.Spec.agg (Amat V c) (Hmat V c)) (fun t ht => flushed_eq V c t ht) cover

end Cert.ValueAgg

end
-- ==== Proof.KernelValue.lean ====
/-
  What the idealized kernel's program leaves in its result array, as the layer of the specification.

  The run of the program names the result as what the aggregation region's write-backs left; that region, entered from
  the matrix as launched and from the node values the linear region's write-backs left, leaves the aggregation of the two;
  the linear region, entered from the features and weights as launched and from the bias vector laid out as a row by the one
  host operation, leaves the linear map of them.  Composed: the layer.
-/
import proofs.«112089_j31421980738083_1_alg».proof.Proof.KI.MainRun
import proofs.«112089_j31421980738083_1_alg».proof.Proof.ValueLin
import proofs.«112089_j31421980738083_1_alg».proof.Proof.ValueAgg
import proofs.«112089_j31421980738083_1_alg».proof.Proof.Spec
import Idealize.ShloMosaic.Lib.ValueLayout
import Idealize.ShloMosaic.Lib.StableHlo.Run

noncomputable section

namespace Cert.KernelValue

open Cert.KernelIdeal Cert.KernelIdeal.Gen Cert.KernelIdeal.Fr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The host operation lays the bias vector out as the one row of a 1 x 128 array: entry (0, q) is the vector's entry q. -/
theorem bias_row (c : Dev nD) :
    (V1 m ρ c main_v0 : (⟨2, ![1, 128]⟩ : Shape).Idx → EReal) = Cert.Spec.row (m ((c : Thread nD τ).loc main_arg3)) := by
  have e : (V1 m ρ c main_v0 : S1x128.Idx → EReal)
      = fun i => shapeCast S1x128 (m ((c : Thread nD τ).loc main_arg3)) shapeCasts_S128_S1x128 i := by
    show StableHlo.after hostOps0 (W0 m ρ c) (Proc.devRef .tc main_v0) = _
    after_results; rfl
  rw [e]
  funext j
  obtain ⟨u, q, rfl⟩ : ∃ (u : Fin 1) (q : Fin 128), j = ix2 u q := ⟨j 0, j 1, eq_ix2 j⟩
  exact shapeCast_a_1a_apply _ _ u q

/-- The result array at the end of the run is the layer of the launch contents of the four arguments. -/
theorem result_eq (c : Dev nD) :
    (dat1 (F := Ideal) (V2 m ρ) c).arrAt 2 cfg1.N
      = Cert.Spec.layer (m ((c : Thread nD τ).loc main_arg0)) (m ((c : Thread nD τ).loc main_arg1))
          (m ((c : Thread nD τ).loc main_arg2)) (m ((c : Thread nD τ).loc main_arg3)) := by
  rw [Cert.ValueAgg.agg_value, V2_main_arg1, V2_main_v1, Cert.ValueLin.lin_value, V1_main_arg0, V1_main_arg2, bias_row]
  rfl

/-- The idealized kernel's program runs, ends with its result array at the layer of its arguments, and leaves the
    arguments unchanged. -/
theorem run : θ_run defs (onTc (τ := τ) (main (F := Ideal))) ⟨m, fun _ => 0, ρ⟩ (fun r => ∀ c : Dev nD,
      r.2.mem ((c.tc : Thread nD τ).loc main_v2)
        = Cert.Spec.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (Cert.KernelIdeal.Fr.run m ρ)

end Cert.KernelValue

end
-- ==== Proof.RefIsSpec.lean ====
/-
  The reference program's result is the layer of `Spec`.

  The reference is five array operations: a contraction of the node features with the weights over the 256 input
  features, the bias vector laid out as a 1 x 128 row and then repeated down the 16384 rows, their elementwise sum, and
  the contraction of the dense matrix with that sum over the 16384 nodes.  Read at an entry (r, o), the last operation is
  the sum over n of A (r, n) times the third operation's entry (n, o); that entry is the sum over i of
  x (n, i) * W (o, i), plus b (o).  This is `agg A (lin x W (row b))` entry by entry, with the same index on each operand.
-/
import proofs.«112089_j31421980738083_1_alg».proof.Proof.Gen.ReferenceIdeal.Read
import proofs.«112089_j31421980738083_1_alg».proof.Proof.Spec

noncomputable section

namespace Cert.RefIsSpec

open Idealize.ShloMosaic Idealize.ShloMosaic.ValueIdx Cert.ReferenceIdeal Cert.ReferenceIdeal.Read

/-- The reference's result, as a function of its four arguments, is `Spec.layer` of them. -/
theorem ref_eq (x0 : (⟨Cert.ReferenceIdeal.S16384x256, .f32⟩ : BufTy).Contents (Elt Ideal))
    (x1 : (⟨Cert.ReferenceIdeal.S16384x16384, .f32⟩ : BufTy).Contents (Elt Ideal))
    (x2 : (⟨Cert.ReferenceIdeal.S128x256, .f32⟩ : BufTy).Contents (Elt Ideal))
    (x3 : (⟨Cert.ReferenceIdeal.S128, .f32⟩ : BufTy).Contents (Elt Ideal)) :
    Cert.ReferenceIdeal.Read.val_main_v4 (F := Ideal) x0 x1 x2 x3 = Cert.Spec.layer x0 x1 x2 x3 := by
  funext j
  obtain ⟨r, o, rfl⟩ : ∃ (r : Fin 16384) (o : Fin 128), j = ix2 r o := ⟨j 0, j 1, eq_ix2 j⟩
  rw [val_main_v4_apply]
  unfold Cert.Spec.layer Cert.Spec.agg
  refine Finset.sum_congr rfl fun n _ => ?_
  -- the matrix is read at (r, n) and the node values at (n, o)
  have hl : lidx_main_v4 (ix2 r o) n = ix2 r n :=
    funext fun a => Fin.ext (by match a with | ⟨0, _⟩ => rfl | ⟨1, _⟩ => rfl)
  have hr : ridx_main_v4 (ix2 r o) n = ix2 n o :=
    funext fun a => Fin.ext (by match a with | ⟨0, _⟩ => rfl | ⟨1, _⟩ => rfl)
  rw [hl, hr]
  congr 1
  -- the node value (n, o): the inner product with the weights, plus the bias
  rw [val_main_v3_apply, val_main_v0_apply, val_main_v2_apply, val_main_v1_apply, Ideal.addf_def]
  unfold Cert.Spec.lin Cert.Spec.row
  congr 1
  · refine Finset.sum_congr rfl fun i _ => ?_
    have hl0 : lidx_main_v0 (ix2 n o) i = ix2 n i :=
      funext fun a => Fin.ext (by match a with | ⟨0, _⟩ => rfl | ⟨1, _⟩ => rfl)
    have hr0 : ridx_main_v0 (ix2 n o) i = ix2 o i :=
      funext fun a => Fin.ext (by match a with | ⟨0, _⟩ => rfl | ⟨1, _⟩ => rfl)
    rw [hl0, hr0]
  · congr 1
    funext a
    exact Fin.ext (by match a with | ⟨0, _⟩ => rfl)

end Cert.RefIsSpec

end
-- ==== Proof.lean ====
/-
  A graph-convolution layer, kernel against reference, over the extended reals.

  The kernel is two pipelined regions: a linear map h = x · Wᵀ + b computed block of 2048 nodes by block, and the
  aggregation out = A · h computed on a 16 x 8 grid, each row of the grid accumulating eight partial products in a scratch
  buffer that is reset at the row's first point and copied out at its last.  The reference computes the same two products
  whole.  At the ideal instance a change of float format is the identity, the matrix unit's product into a zero
  accumulator and the host's dot product are the same finite sum, and regrouping that sum into eight blocks uses only
  that addition of extended reals is commutative and associative; so both programs end with the result array at
  `Cert.Spec.layer` of the arguments, and the precondition (finite inputs) is never opened.

  The three frames: the kernel's program at either instance runs as host operation, region, region (the same hand text
  under the two namespaces, generic in the float instance); the reference's frame is its run with the result dropped.
  The ideal pass rewrote nothing, so the idealization claim is trivial.
-/
import proofs.«112089_j31421980738083_1_alg».proof.Defs
import proofs.«112089_j31421980738083_1_alg».proof.Proof.Gen.Kernel
import proofs.«112089_j31421980738083_1_alg».proof.Proof.Gen.KernelIdeal
import proofs.«112089_j31421980738083_1_alg».proof.Proof.Gen.ReferenceIdeal
import proofs.«112089_j31421980738083_1_alg».proof.Proof.Gen.Pre_finite_inputs
import proofs.«112089_j31421980738083_1_alg».proof.Proof.Gen.ReferenceIdeal.Run
import proofs.«112089_j31421980738083_1_alg».proof.Proof.Gen.ReferenceIdeal.Read
import proofs.«112089_j31421980738083_1_alg».proof.Proof.K.MainRun
import proofs.«112089_j31421980738083_1_alg».proof.Proof.KI.MainRun
import proofs.«112089_j31421980738083_1_alg».proof.Proof.KernelValue
import proofs.«112089_j31421980738083_1_alg».proof.Proof.RefIsSpec
import Idealize.ShloMosaic.Adequacy
import Idealize.ShloMosaic.Init

noncomputable section

namespace Cert.Proof

open Idealize.ShloMosaic Idealize.SL.Sem

/-- The word-level kernel's program runs and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does the idealized kernel's. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the result array at the layer of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefIsSpec.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
